-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S_S_d : S_.ReducesTo [] S_

variable [Facts]

def fn_part1 {F : FTy → Type} [FloatOps F] (main_arg4 : FVec F S256 .f32) (main_arg5 : FVec F S_ .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S_ .f32 := Host.absf main_arg5
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  main_v27

def fn {F : FTy → Type} [FloatOps F] (main_arg0 : FVec F S10000x256 .f32) (main_arg1 : FVec F S10000x10000 .f32) (main_arg2 : FVec F S256x256 .f32) (main_arg3 : FVec F S256 .f32) (main_arg4 : FVec F S256 .f32) (main_arg5 : FVec F S_ .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S_ : Shape := ⟨0, ![]⟩
abbrev S1x256 : Shape := ⟨2, ![1, 256]⟩
abbrev S1x1 : Shape := ⟨2, ![1, 1]⟩
abbrev S200x10000 : Shape := ⟨2, ![200, 10000]⟩
abbrev S400x256 : Shape := ⟨2, ![400, 256]⟩
abbrev S200x256 : Shape := ⟨2, ![200, 256]⟩

abbrev nBuf : Space → Nat
  | .hbm => 11
  | .vmem => 12
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S_, .f32⟩
  | .hbm, ⟨6, _⟩ => ⟨S256x256, .f32⟩
  | .hbm, ⟨7, _⟩ => ⟨S1x256, .f32⟩
  | .hbm, ⟨8, _⟩ => ⟨S1x256, .f32⟩
  | .hbm, ⟨9, _⟩ => ⟨S1x1, .f32⟩
  | .hbm, ⟨10, _⟩ => ⟨S10000x256, .f32⟩
  | .local _ .vmem, ⟨0, _⟩ => ⟨S10000x256, .f32⟩
  | .local _ .vmem, ⟨1, _⟩ => ⟨S256x256, .f32⟩
  | .local _ .vmem, ⟨2, _⟩ => ⟨S1x256, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S200x10000, .f32⟩
  | .local _ .vmem, ⟨7, _⟩ => ⟨S1x256, .f32⟩
  | .local _ .vmem, ⟨8, _⟩ => ⟨S1x1, .f32⟩
  | .local _ .vmem, ⟨9, _⟩ => ⟨S400x256, .f32⟩
  | .local _ .vmem, ⟨10, _⟩ => ⟨S400x256, .f32⟩
  | .local _ .vmem, ⟨11, _⟩ => ⟨S10000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S400x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S256x256_S256x256_1_0 : S256x256.Transposes [1, 0] S256x256
  shapeCasts_S256_S1x256 : S256.ShapeCasts S1x256
  shapeCasts_S_S1x1 : S_.ShapeCasts S1x1
  inb_S10000x256_S10000x256_0_0 : ∀ a, (![0, 0] : Fin 2 → Nat) a + S10000x256.size a ≤ S10000x256.size a
  h_S10000x256 : 0 < S10000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  shapeCasts_S10000x256_S10000x256 : S10000x256.ShapeCasts S10000x256
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S200x10000_S200x10000_0_0 : ∀ a, (![0, 0] : Fin 2 → Nat) a + S200x10000.size a ≤ S200x10000.size a
  h_S200x10000 : 0 < S200x10000.numel
  broadcasts_S1x256_S200x256 : S1x256.Broadcasts S200x256
  inb_S400x256_S200x256_0_0 : ∀ a, (![0, 0] : Fin 2 → Nat) a + S200x256.size a ≤ S400x256.size a
  h_S200x256 : 0 < S200x256.numel
  inb_S400x256_S200x256_200_0 : ∀ a, (![200, 0] : Fin 2 → Nat) a + S200x256.size a ≤ S400x256.size a
  dot_S10000x256_S256x256_S10000x256_1_0_0_1_n_n_wf : DotDims.WF S10000x256 S256x256 S10000x256 [1] [0] [0] [1] [] []
  dot_S200x10000_S10000x256_S200x256_1_0_0_1_n_n_wf : DotDims.WF S200x10000 S10000x256 S200x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S10000x256.size a
  hwx0_0 : ∀ i : grid0.Coords, EltTy.bits .f32 = 32 ∨ (Rect.block (s := S10000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x10000.size a ≤ S10000x10000.size a
  hwx0_4 : ∀ i : grid0.Coords, EltTy.bits .f32 = 32 ∨ (Rect.block (s := S10000x10000) S200x10000.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x256.size a ≤ S10000x256.size a
  hwx0_7 : ∀ i : grid0.Coords, EltTy.bits .f32 = 32 ∨ (Rect.block (s := S10000x256) S400x256.size (cc0_transform_7 i) (hinb0_7 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf

abbrev win0_0 : Pipeline.Window sig grid0 :=
  Pipeline.Window.ofSpec (Memref.whole main_arg0) S10000x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S200x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S400x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S_ : Shape := ⟨0, ![]⟩
abbrev S1x256 : Shape := ⟨2, ![1, 256]⟩

abbrev nBuf : Space → Nat
  | .hbm => 21
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S_, .f32⟩
  | .hbm, ⟨6, _⟩ => ⟨S256x256, .f32⟩
  | .hbm, ⟨7, _⟩ => ⟨S10000x256, .f32⟩
  | .hbm, ⟨8, _⟩ => ⟨S1x256, .f32⟩
  | .hbm, ⟨9, _⟩ => ⟨S10000x256, .f32⟩
  | .hbm, ⟨10, _⟩ => ⟨S10000x256, .f32⟩
  | .hbm, ⟨11, _⟩ => ⟨S10000x256, .f32⟩
  | .hbm, ⟨12, _⟩ => ⟨S1x256, .f32⟩
  | .hbm, ⟨13, _⟩ => ⟨S10000x256, .f32⟩
  | .hbm, ⟨14, _⟩ => ⟨S10000x256, .f32⟩
  | .hbm, ⟨15, _⟩ => ⟨S_, .f32⟩
  | .hbm, ⟨16, _⟩ => ⟨S10000x256, .f32⟩
  | .hbm, ⟨17, _⟩ => ⟨S10000x256, .i1⟩
  | .hbm, ⟨18, _⟩ => ⟨S10000x256, .f32⟩
  | .hbm, ⟨19, _⟩ => ⟨S10000x256, .f32⟩
  | .hbm, ⟨20, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.LibFrameShared.lean ====
/-
  A frame run for a one-region pipeline whose windows may SHARE an array (one array handed to the kernel through
  several input windows), with an invariant the certificate states point by point (a scratch buffer carried
  between grid points).

  The pipeline holds each window's array at a share; for distinct arrays that is the full share of each, and the
  launch hands them over as they are. When two input windows read one array the full share of that array has to be
  dealt between them, and how is the certificate's to say: the hypothesis `hsplit` turns the distinct buffers behind
  the arrays, each whole at the full share, into the pipeline's arrays at the proof data's shares. Everything else is
  as for distinct arrays: the scoped buffers that are no staging buffer reach the body through the invariant
  (`hin`, `hout`), the unscoped buffers that are no window's array bypass the region and are read back at the end.
  The kernel has no semaphore of its own and does not use the generator register.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

variable {Λ₀ : SL.Sem.Labels} {P : Type} [Fintype P] [DecidableEq P] [∀ e, Nonempty (Val e)]

local notation "𝕄" => MT nD τ sig Unit Val ℕ (UR sig nD τ) ℕ

/-- The frame run, with a tracking invariant, of a pipeline (no prefetched table, no semaphore of the kernel's own)
    whose windows may share arrays: the layout facts but for the arrays' distinctness (`hw`), the staging cells
    pairwise distinct (`hinj`), the body obligation, @main up to the region (`hmain`) with the buffers' contents
    there (`V`), how the buffers behind the arrays make the pipeline's arrays at the proof data's shares (`hsplit`),
    and the invariant entered from the scoped rest (`hin`) and returned to it (`hout`). Every array of the pipeline
    ends at what the library computes from the proof data, every other unscoped buffer as the region found it. -/
theorem θ_run_frame_track_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (Ix := Unit) (Name := ℕ) (U := UR sig nD τ) (Lvl := ℕ) (Val := Val) (cfgs p).spec c : sProp 𝕄) ⊢ (dats p c).Φ 0)
    (hout : ∀ c, (dats p c).Φ (Fin.last (cfgs p).N) ⊢ (scopedRest (Ix := Unit) (Name := ℕ) (U := UR sig nD τ) (Lvl := ℕ) (Val := Val) (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr; · iempintro
      iexact H)
    (hin := fun c => (show iprop(emp ∗ scopedRest (Ix := Unit) (Name := ℕ) (U := UR sig nD τ) (Lvl := ℕ) (Val := Val) (cfgs p).spec c) ⊢
        (scopedRest (Ix := Unit) (Name := ℕ) (U := UR sig nD τ) (Lvl := ℕ) (Val := Val) (cfgs p).spec c : sProp 𝕄) from by
          iintro ⟨-, H⟩; iexact H).trans (hin c))
    (hout := fun c => (hout c).trans (by
      iintro H
      isplitr; · iempintro
      iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Pipeline

end Idealize.ShloMosaic

end
-- ==== Proof.KI.Setup.lean ====
/-
  What the kernel's frame and value proofs share: @main up to the one region and the buffers' contents there,
  each window's block at a grid point, the kernel's one branch decided over the grid, the staging memrefs the
  pipeline passes at a point, and the two things the body leaves behind:
  * in the scratch buffer, the linear layer `seq · Wᵀ + b_fc`, computed once at the first grid point and only read
    afterwards;
  * in the output's staging buffer, 400 rows of the result as two pieces of 200 rows, one per adjacency row block.
-/
import proofs.«133158_g38517266711067_cont_8to1_b_469_8_alg».proof.Proof.Gen.KernelIdeal.Launch
import proofs.«133158_g38517266711067_cont_8to1_b_469_8_alg».proof.Proof.Gen.KernelIdeal.Skeleton
import proofs.«133158_g38517266711067_cont_8to1_b_469_8_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the four host operations (the transpose of the
    weights and the three reshapes). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first grid point. -/
abbrev t₀ : Fin cfg0.N := ⟨0, by decide⟩

/-- Each input window's current staging buffer holds its block at every point, fetched there or not, for any proof
    data whose array is the region-entry contents and whose body leaves the block in place: unfetched, the block
    index has not moved since the last fetch; no window is cut or idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one `scf.if`: the grid coordinate is zero. -/
abbrev cond0 (i : grid0.Coords) : Prop :=
  (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val = 0 :=
  (by decide +kernel : ∀ t : Fin grid0.N, cond0 (grid0.coords t) ↔ t.val = 0)

/-- No window is ever idle. -/
theorem liveAt : ∀ (w : Fin cfg0.W) (t : Fin cfg0.N), cfg0.idle w (grid0.coords t) = false := fun _ _ => rfl

/-! ## The staging memrefs at a point, and the scratch -/

abbrev ms0_0 (t : Fin cfg0.N) : Memref sig .tc .vmem S10000x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S200x10000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S200x10000 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S400x256 .f32 := win0_7.stage (cfg0.slots t 7)
abbrev hs0_7 (t : Fin cfg0.N) : (ms0_7 t).IsWhole := hstage0_7 ((cfg0.slots t 7).cast nbuf0_7)
/-- The scratch operand: a whole scoped buffer of the kernel's own. -/
abbrev scM0 : Memref sig .tc .vmem S10000x256 .f32 := Memref.whole cc0_scratch0

/-- The scoped buffers that are no staging buffer are the one scratch, owned at some contents. -/
theorem scopedRest0_owns (c : Dev nD) :
    (Pipeline.scopedRest (Ix := Unit) (Name := ℕ) (U := UR sig nD τ) (Lvl := ℕ) (Val := Elt F) spec0 c : sProp 𝕄)
      = iprop(∃ d, owns (c : Thread nD τ) scM0 fullShare d) := by
  rw [scopedRest0_eq]; simp only [scM0, owns_whole]; try rfl

/-! ## What the body leaves -/

/-- The two output rectangles: rows 0–199 and rows 200–399 of the 400-row block, all 256 columns. -/
abbrev rLo : Rect S400x256 := Rect.unit (s := S400x256) ![0, 0] S200x256.size inb_S400x256_S200x256_0_0
abbrev rHi : Rect S400x256 := Rect.unit (s := S400x256) ![200, 0] S200x256.size inb_S400x256_S200x256_200_0

/-- What the body leaves in the output's staging buffer, from the scratch contents `xs`, the bias row `x5`, the slope
    `x6` and the two adjacency row blocks `x3`, `x4`: the second store's payload on rows 200–399 over the first's on
    rows 0–199. -/
def OUT (xs : Vec F S10000x256 .f32) (x5 : Vec F S1x256 .f32) (x6 : Vec F S1x1 .f32) (x3 x4 : Vec F S200x10000 .f32) : Vec F S400x256 .f32 :=
  View.canon [⟨rHi, k0_pay5 xs x5 x6 x4⟩, ⟨rLo, k0_pay4 xs x5 x6 x3⟩]

/-- The two pieces cover the 400-row block. -/
theorem cover_out (a b : Vec F S200x256 .f32) (y : S400x256.Idx) :
    ∃ pc ∈ ([⟨rHi, a⟩, ⟨rLo, b⟩] : List (View.Piece (Elt F) S400x256 .f32)), y ∈ pc.1.set := by
  have h0 : (y 0).val < 400 := ValueIdx.idx2_lt0 y
  have h1 : (y 1).val < 256 := ValueIdx.idx2_lt1 y
  by_cases h : (y 0).val < 200
  · refine ⟨⟨rLo, b⟩, List.mem_cons_of_mem _ (List.mem_singleton_self _), ?_⟩
    show y ∈ rLo.set
    rw [Rect.mem_set_unit]
    intro ax
    match ax with
    | ⟨0, _⟩ => exact ⟨Nat.zero_le _, (by show (y 0).val < 0 + 200; omega)⟩
    | ⟨1, _⟩ => exact ⟨Nat.zero_le _, (by show (y 1).val < 0 + 256; omega)⟩
  · refine ⟨⟨rHi, a⟩, List.mem_cons_self, ?_⟩
    show y ∈ rHi.set
    rw [Rect.mem_set_unit]
    intro ax
    match ax with
    | ⟨0, _⟩ => exact ⟨(by show 200 ≤ (y 0).val; omega), (by show (y 0).val < 200 + 200; omega)⟩
    | ⟨1, _⟩ => exact ⟨Nat.zero_le _, (by show (y 1).val < 0 + 256; omega)⟩

/-- The whole-buffer rectangle's offsets are zero. -/
theorem off0 : (![0, 0] : Fin 2 → ℕ) = fun _ => 0 := funext fun a => by fin_cases a <;> rfl

end Cert.KernelIdeal.Hand

end
-- ==== Proof.KI.Data.lean ====
/-
  The pipeline's proof data for the kernel, in closed form. The scratch buffer is written once, at the first grid
  point, with the linear layer of the three blocks that never move (features, transposed weights, bias row), and only
  read afterwards; so after EVERY point the output's staging buffer holds the two pieces computed from that one
  value and the point's two adjacency row blocks, and no recursion over the points is needed. The adjacency matrix is
  read through two windows; each holds half of the array's full share.
-/
import proofs.«133158_g38517266711067_cont_8to1_b_469_8_alg».proof.Proof.KI.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch's value once stored: the linear layer of the first point's feature, weight and bias blocks. -/
def SF0 (c : Dev nD) : Vec F S10000x256 .f32 := k0_pay1 (iblk m c 0 t₀) (iblk m c 1 t₀) (iblk m c 2 t₀)

/-- The share each window holds of its array: the two windows on the adjacency matrix a half each, the others all. -/
def qs : Fin 8 → PosShare TreeShare
  | ⟨0, _⟩ => fullShare | ⟨1, _⟩ => fullShare | ⟨2, _⟩ => fullShare
  | ⟨3, _⟩ => fullShare.left | ⟨4, _⟩ => fullShare.right
  | ⟨5, _⟩ => fullShare | ⟨6, _⟩ => fullShare | ⟨7, _⟩ => fullShare

/-- The region invariant before position `n`: before the first point the scratch at anything; afterwards at the
    linear layer. -/
def PhiS (c : Dev nD) : ℕ → sProp 𝕄
  | 0 => iprop(∃ d, owns (c : Thread nD τ) scM0 fullShare d)
  | _ + 1 => owns (c : Thread nD τ) scM0 fullShare (SF0 m c)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => OUT (SF0 m c) (iblk m c 5 t) (iblk m c 6 t) (iblk m c 3 t) (iblk m c 4 t)
  Φ t := PhiS m c t.val
  q w := qs w
  owed _ := 0

theorem A_eq (c : Dev nD) (w : Fin cfg0.W) : (dats m 0 c).A w = V m c (Pipeline.arrRef spec0 w) := by
  dsimp only [dats]
theorem q_eq (c : Dev nD) (w : Fin cfg0.W) : (dats m 0 c).q w = qs w := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) :
    (dats m 0 c).after 7 t = OUT (SF0 m c) (iblk m c 5 t) (iblk m c 6 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

end Cert.KernelIdeal.Hand

end
-- ==== Proof.KI.RunA.lean ====
/-
  The kernel body at the FIRST grid point, on any whole staging memrefs: the branch is taken, so the body computes
  the linear layer from the feature, weight and bias blocks, stores it over whatever the scratch held, reads it
  back, and stores the two output pieces. The inputs' buffers end as they were; the output's buffer ends at the two
  pieces over the freshly stored scratch value; the scratch ends at that value.
-/
import proofs.«133158_g38517266711067_cont_8to1_b_469_8_alg».proof.Proof.KI.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem sound_kernel_A (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S400x256 .f32) (harg8 : arg8.IsWhole) (arg9 : Memref sig .tc .vmem S10000x256 .f32) (harg9 : arg9.IsWhole)
    (hc : cond0 i) (x0 : Vec F S10000x256 .f32) (x1 : Vec F S256x256 .f32) (x2 : Vec F S1x256 .f32) (x3 x4 : Vec F S200x10000 .f32) (x5 : Vec F S1x256 .f32) (x6 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (OUT (k0_pay1 x0 x1 x2) x5 x6 x3 x4)
            ∗ owns (c : Thread nD τ) arg9 fullShare (k0_pay1 x0 x1 x2)) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%d9, %f9, -, H9⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H8]
  · iexists _; isplitr
    swap; · iexact H8
    ipureintro
    sl_unfold_words
    rw [View.read_writes_eq_canon _ _ _ (cover_out _ _)]
    simp only [View.readAt_eq_ld, harg1.read_unread, harg2.read_unread, harg3.read_unread, harg4.read_unread, harg5.read_unread, harg6.read_unread, harg7.read_unread,
      View.ld_unit_zero (S := S10000x256) off0, View.ld_unit_zero (S := S256x256) off0, View.ld_unit_zero (S := S1x256) off0,
      View.ld_unit_zero (S := S200x10000) off0, View.ld_unit_zero (S := S1x1) off0,
      View.readCov_unit_zero (S := S10000x256) _ off0]
    rfl
  iexists _; isplitr
  swap; · iexact H9
  ipureintro
  sl_unfold_words
  rw [View.read_writes_eq_canon _ _ _ (fun y => ⟨_, List.mem_singleton_self _, View.mem_set_unit_zero off0 inb_S10000x256_S10000x256_0_0 y⟩), View.canon_unit_zero off0]
  simp only [View.readAt_eq_ld, harg1.read_unread, harg2.read_unread, harg3.read_unread, harg4.read_unread, harg5.read_unread, harg6.read_unread, harg7.read_unread,
      View.ld_unit_zero (S := S10000x256) off0, View.ld_unit_zero (S := S256x256) off0, View.ld_unit_zero (S := S1x256) off0,
      View.ld_unit_zero (S := S200x10000) off0, View.ld_unit_zero (S := S1x1) off0]

end Cert.KernelIdeal.Hand

end
-- ==== Proof.KI.RunB.lean ====
/-
  The kernel body at every LATER grid point, on any whole staging memrefs: the branch is not taken, so the body only
  reads the scratch (which holds what the first point stored) and stores the two output pieces. The inputs' buffers
  and the scratch end as they were; the output's buffer ends at the two pieces over the scratch contents.
-/
import proofs.«133158_g38517266711067_cont_8to1_b_469_8_alg».proof.Proof.KI.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem sound_kernel_B (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S400x256 .f32) (harg8 : arg8.IsWhole) (arg9 : Memref sig .tc .vmem S10000x256 .f32) (harg9 : arg9.IsWhole)
    (hc : ¬cond0 i) (x0 : Vec F S10000x256 .f32) (x1 : Vec F S256x256 .f32) (x2 : Vec F S1x256 .f32) (x3 x4 : Vec F S200x10000 .f32) (x5 : Vec F S1x256 .f32) (x6 : Vec F S1x1 .f32) (xs : Vec F S10000x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (OUT xs x5 x6 x3 x4)
            ∗ owns (c : Thread nD τ) arg9 fullShare xs) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%f9, %hf9, H9⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg9.eq_unread hf9
  sl_exec (disch := exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H8]
  · iexists _; isplitr
    swap; · iexact H8
    ipureintro
    rw [View.read_writes_eq_canon _ _ _ (cover_out _ _)]
    simp only [View.readAt_eq_ld, harg1.read_unread, harg2.read_unread, harg3.read_unread, harg4.read_unread, harg5.read_unread, harg6.read_unread, harg7.read_unread,
      View.ld_unit_zero (S := S10000x256) off0, View.ld_unit_zero (S := S256x256) off0, View.ld_unit_zero (S := S1x256) off0,
      View.ld_unit_zero (S := S200x10000) off0, View.ld_unit_zero (S := S1x1) off0, harg9.read_unread]
    rfl
  iexists _; isplitr; · ipureintro; exact harg9.read_unread _
  iexact H9

end Cert.KernelIdeal.Hand

end
-- ==== Proof.KI.Split.lean ====
/-
  How the launch's buffers become the pipeline's arrays at the proof data's shares. Seven distinct buffers lie
  behind the eight windows' arrays: the adjacency matrix is read by two windows. Its full share is cut in two halves,
  one for each of them; every other window holds its own buffer whole.
-/
import proofs.«133158_g38517266711067_cont_8to1_b_469_8_alg».proof.Proof.KI.Data
import Idealize.ShloMosaic.Lib.Pipeline.Launch

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

variable (m : (ℓ : Loc nD τ sig) → Buf (Elt F) ℓ)

/-- The distinct buffers behind the eight windows' arrays, listed: the adjacency matrix appears once. -/
theorem arrRefs_eq : Finset.univ.image (Pipeline.arrRef spec0)
    = [main_arg0, main_v0, main_v1, main_arg1, main_v2, main_v3, main_v4].toFinset := by decide

/-- Each window holds its array at the share the proof data name: the output whole, an input at its own. -/
theorem share_eq (c : Dev nD) : ∀ w : Fin 8, (dats m 0 c).share w = qs w
  | 0 => rfl | 1 => rfl | 2 => rfl | 3 => rfl | 4 => rfl | 5 => rfl | 6 => rfl | 7 => rfl
  | ⟨_ + 8, h⟩ => absurd h (Nat.not_lt.2 (Nat.le_add_left _ _))

/-- A window's array at entry is its whole buffer at the region-entry contents, held at the window's share: the array
    is a whole buffer, so its element set is everything, and nothing has been written back before the first point. -/
theorem arr_pt (c : Dev nD) (w : Fin 8) :
    ((cfg0.win w).arr.view.loc (c.tc : Thread nD τ) ↦[(cfg0.win w).arr.view.set]{(dats m 0 c).share w} (dats m 0 c).arrAt w 0 : sProp 𝕄)
      = (((c.tc : Thread nD τ).loc (Pipeline.arrRef spec0 w)) ↦{qs w} V m c (Pipeline.arrRef spec0 w)) := by
  rw [(arr_whole0 w).set_eq_univ, share_eq]; rfl

/-- The distinct buffers behind the windows' arrays, each whole at the full share at the region-entry contents, make
    the pipeline's arrays at entry at the proof data's shares. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  -- the left side: the seven distinct buffers one by one
  unfold Pipeline.arrBufs
  rw [bigSep_eq_bigSepL_of_eq _ arrRefs_eq (by decide)]
  -- the right side: the eight windows one by one, each its whole buffer at its share
  unfold Dat.arrays
  rw [show (bigSep Finset.univ fun w : Fin cfg0.W => ((cfg0.win w).arr.view.loc (c.tc : Thread nD τ)
        ↦[(cfg0.win w).arr.view.set]{(dats m 0 c).share w} (dats m 0 c).arrAt w 0 : sProp 𝕄))
      = bigSep Finset.univ fun w : Fin 8 => (((c.tc : Thread nD τ).loc (Pipeline.arrRef spec0 w)) ↦{qs w} V m c (Pipeline.arrRef spec0 w) : sProp 𝕄)
    from bigSep_congr fun w _ => arr_pt m c w, bigSep_W0]
  show iprop((((c.tc : Thread nD τ).loc main_arg0) ↦{fullShare} V m c main_arg0)
      ∗ (((c.tc : Thread nD τ).loc main_v0) ↦{fullShare} V m c main_v0)
      ∗ (((c.tc : Thread nD τ).loc main_v1) ↦{fullShare} V m c main_v1)
      ∗ (((c.tc : Thread nD τ).loc main_arg1) ↦{fullShare} V m c main_arg1)
      ∗ (((c.tc : Thread nD τ).loc main_v2) ↦{fullShare} V m c main_v2)
      ∗ (((c.tc : Thread nD τ).loc main_v3) ↦{fullShare} V m c main_v3)
      ∗ (((c.tc : Thread nD τ).loc main_v4) ↦{fullShare} V m c main_v4))
    ⊢ iprop((((c.tc : Thread nD τ).loc main_arg0) ↦{fullShare} V m c main_arg0)
      ∗ (((c.tc : Thread nD τ).loc main_v0) ↦{fullShare} V m c main_v0)
      ∗ (((c.tc : Thread nD τ).loc main_v1) ↦{fullShare} V m c main_v1)
      ∗ (((c.tc : Thread nD τ).loc main_arg1) ↦{fullShare.left} V m c main_arg1)
      ∗ (((c.tc : Thread nD τ).loc main_arg1) ↦{fullShare.right} V m c main_arg1)
      ∗ (((c.tc : Thread nD τ).loc main_v2) ↦{fullShare} V m c main_v2)
      ∗ (((c.tc : Thread nD τ).loc main_v3) ↦{fullShare} V m c main_v3)
      ∗ (((c.tc : Thread nD τ).loc main_v4) ↦{fullShare} V m c main_v4))
  iintro ⟨H0, H1, H2, HA, H5, H6, H7⟩
  -- the adjacency matrix's full share is cut in two halves, one for each window that reads it
  ihave HA := (pointsTo_share (PosShare.mem_left_op_right fullShare)).1 $$ HA
  icases HA with ⟨HA₁, HA₂⟩
  isplitl [H0]; · iexact H0
  isplitl [H1]; · iexact H1
  isplitl [H2]; · iexact H2
  isplitl [HA₁]; · iexact HA₁
  isplitl [HA₂]; · iexact HA₂
  isplitl [H5]; · iexact H5
  isplitl [H6]; · iexact H6
  iexact H7

end Cert.KernelIdeal.Hand

end
-- ==== Proof.KI.Frame.lean ====
/-
  The body obligation at every grid point, the frame run, and the frame. At the first point the invariant hands the
  body the scratch at anything and takes it back at the linear layer; at every later point it hands the scratch at
  the linear layer and takes it back unchanged. Each input's staging buffer holds its block; the output's staging
  buffer, handed at anything, is left at the two pieces. The launch deals the adjacency matrix's full share to its two
  windows by halves. The argument arrays end unchanged: the features and the adjacency matrix as input windows' arrays
  (never written), the other four because no window stages them and the region passes them by.
-/
import proofs.«133158_g38517266711067_cont_8to1_b_469_8_alg».proof.Proof.KI.Data
import proofs.«133158_g38517266711067_cont_8to1_b_469_8_alg».proof.Proof.KI.RunA
import proofs.«133158_g38517266711067_cont_8to1_b_469_8_alg».proof.Proof.KI.RunB
import proofs.«133158_g38517266711067_cont_8to1_b_469_8_alg».proof.Proof.KI.Split
import proofs.«133158_g38517266711067_cont_8to1_b_469_8_alg».proof.Proof.LibFrameShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant at a point's start, restated at the point's number. -/
theorem Phi_castSucc (c : Dev nD) (t : Fin cfg0.N) : (dats m 0 c).Φ t.castSucc = PhiS m c t.val := by
  dsimp only [dats]; simp only [Fin.coe_castSucc]

/-- Before a point that is not the first the scratch holds the linear layer. -/
theorem PhiS_pos (c : Dev nD) (n : ℕ) (hz : n ≠ 0) : PhiS m c n = owns (c : Thread nD τ) scM0 fullShare (SF0 m c) := by
  cases n with
  | zero => exact absurd rfl hz
  | succ n => rfl

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = owns (c : Thread nD τ) scM0 fullShare (SF0 m c) from rfl]
  rw [show (dats m 0 c).leavesExact 0 t = owns (c : Thread nD τ) (ms0_0 t) fullShare ((dats m 0 c).after 0 t) from by
    unfold Dat.leavesExact; rw [liveAt 0 t], after0_0]
  rw [show (dats m 0 c).leavesExact 1 t = owns (c : Thread nD τ) (ms0_1 t) fullShare ((dats m 0 c).after 1 t) from by
    unfold Dat.leavesExact; rw [liveAt 1 t], after0_1]
  rw [show (dats m 0 c).leavesExact 2 t = owns (c : Thread nD τ) (ms0_2 t) fullShare ((dats m 0 c).after 2 t) from by
    unfold Dat.leavesExact; rw [liveAt 2 t], after0_2]
  rw [show (dats m 0 c).leavesExact 3 t = owns (c : Thread nD τ) (ms0_3 t) fullShare ((dats m 0 c).after 3 t) from by
    unfold Dat.leavesExact; rw [liveAt 3 t], after0_3]
  rw [show (dats m 0 c).leavesExact 4 t = owns (c : Thread nD τ) (ms0_4 t) fullShare ((dats m 0 c).after 4 t) from by
    unfold Dat.leavesExact; rw [liveAt 4 t], after0_4]
  rw [show (dats m 0 c).leavesExact 5 t = owns (c : Thread nD τ) (ms0_5 t) fullShare ((dats m 0 c).after 5 t) from by
    unfold Dat.leavesExact; rw [liveAt 5 t], after0_5]
  rw [show (dats m 0 c).leavesExact 6 t = owns (c : Thread nD τ) (ms0_6 t) fullShare ((dats m 0 c).after 6 t) from by
    unfold Dat.leavesExact; rw [liveAt 6 t], after0_6]
  rw [show (dats m 0 c).leavesExact 7 t = owns (c : Thread nD τ) (ms0_7 t) fullShare ((dats m 0 c).after 7 t) from by
    unfold Dat.leavesExact; rw [liveAt 7 t], after0_7]
  rw [Phi_castSucc m c t]
  by_cases hz : t.val = 0
  · obtain rfl : t = t₀ := Fin.ext hz
    rw [show PhiS m c (t₀ : Fin cfg0.N).val = iprop(∃ d, owns (c : Thread nD τ) scM0 fullShare d) from rfl]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel_A c (grid0.coords t₀) _ _ _ _ _ _ _ _ _ _ _ _ _ _ _ _ _ _ ((hcond0 t₀).mpr rfl)
      (iblk m c 0 t₀) (iblk m c 1 t₀) (iblk m c 2 t₀) (iblk m c 3 t₀) (iblk m c 4 t₀) (iblk m c 5 t₀) (iblk m c 6 t₀) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS_pos m c _ hz]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel_B c (grid0.coords t) _ _ _ _ _ _ _ _ _ _ _ _ _ _ _ _ _ _ (fun h => hz ((hcond0 t).mp h))
      (iblk m c 0 t) (iblk m c 1 t) (iblk m c 2 t) (iblk m c 3 t) (iblk m c 4 t) (iblk m c 5 t) (iblk m c 6 t) (SF0 m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region — the scratch at anything — is the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [scopedRest0_owns]
  exact Idealize.SL.BI.Entails.refl _

/-- After the last point the invariant gives the scratch back, its contents forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [scopedRest0_owns, show (dats m 0 c).Φ (Fin.last cfg0.N) = owns (c : Thread nD τ) scM0 fullShare (SF0 m c) from rfl]
  iintro H; iexists _; iexact H

/-! ## The run and the frame -/

set_option backward.isDefEq.respectTransparency.types false in
/-- From any memory with zero counters every weakly fair execution of @main terminates, every array of the pipeline
    at what the library computes from the proof data and every other unscoped buffer as the region found it. -/
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := hin m) (hout := hout m)

/-- The frame: the program runs and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats m 0 c).arrAt_in 0 rfl _).trans ((A_eq m c 0).trans (V_main_arg0 m c))),
     ((h c).1 3).trans (((dats m 0 c).arrAt_in 3 rfl _).trans ((A_eq m c 3).trans (V_main_arg1 m c))),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c)⟩)
    (run_main m ρ)

end Cert.KernelIdeal.Hand

end
-- ==== Proof.KI.Blocks.lean ====
/-
  Each input window's block at a grid point, read at one entry, in terms of the six argument arrays as launched.
  The feature block is the feature matrix itself; the weight block is the transpose of the weight matrix (the host
  transposes it before the region); the two bias rows and the slope are reshapes of the argument vectors and scalar;
  the two adjacency blocks at point t are rows 400·t + p and 400·t + 200 + p of the adjacency matrix.
-/
import proofs.«133158_g38517266711067_cont_8to1_b_469_8_alg».proof.Proof.KI.Setup
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

variable (m : (ℓ : Loc nD τ sig) → Buf (Elt F) ℓ)

/-- The grid has 25 points. -/
theorem tlt (t : Fin cfg0.N) : t.val < 25 := lt_of_lt_of_eq t.isLt (show cfg0.N = 25 from N_0)

/-- Row `p` of the first adjacency block at point `t` is row `400·t + p` of the matrix; -/
def rowLo (t : Fin cfg0.N) (p : Fin 200) : Fin 10000 := ⟨400 * t.val + p.val, by have := tlt t; omega⟩
/-- of the second, row `400·t + 200 + p`. -/
def rowHi (t : Fin cfg0.N) (p : Fin 200) : Fin 10000 := ⟨400 * t.val + 200 + p.val, by have := tlt t; omega⟩

/-- The windows' printed index maps, decided once over the 25 grid points: every window but the two adjacency windows
    sits at block (0, 0); the adjacency windows sit at row blocks `2·t` and `2·t + 1`, column block 0. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 2 * t.val ∧ win0_3.index t (1 : Fin 2) = 0
    ∧ win0_4.index t (0 : Fin 2) = 2 * t.val + 1 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The arrays the host writes before the region -/

/-- The region finds the first host result holding the weight matrix transposed, -/
theorem V_main_v0 (c : Dev nD) :
    (V m c main_v0 : S256x256.Idx → Elt F .f32)
      = transpose S256x256 [1, 0] (m ((c : Thread nD τ).loc main_arg2)) transposes_S256x256_S256x256_1_0 := by
  dsimp only [V, hostOps0]; after_results

/-- the second the first bias vector as one row, -/
theorem V_main_v1 (c : Dev nD) :
    (V m c main_v1 : S1x256.Idx → Elt F .f32)
      = shapeCast S1x256 (m ((c : Thread nD τ).loc main_arg3)) shapeCasts_S256_S1x256 := by
  dsimp only [V, hostOps0]; after_results; rfl

/-- the third the second bias vector as one row, -/
theorem V_main_v2 (c : Dev nD) :
    (V m c main_v2 : S1x256.Idx → Elt F .f32)
      = shapeCast S1x256 (m ((c : Thread nD τ).loc main_arg4)) shapeCasts_S256_S1x256 := by
  dsimp only [V, hostOps0]; after_results; rfl

/-- and the fourth the scalar slope as a one-by-one matrix. -/
theorem V_main_v3 (c : Dev nD) :
    (V m c main_v3 : S1x1.Idx → Elt F .f32)
      = shapeCast S1x1 (m ((c : Thread nD τ).loc main_arg5)) shapeCasts_S_S1x1 := by
  dsimp only [V, hostOps0]; after_results; rfl

/-! ## The blocks

A block's entry at `(a, b)` is the array's entry at block index × block size + 1 × the coordinate, axis by axis. -/

theorem blk0 (c : Dev nD) (t : Fin cfg0.N) (k : Fin 10000) (j : Fin 256) :
    iblk m c 0 t (ix2 k j) = m ((c : Thread nD τ).loc main_arg0) (ix2 k j) := by
  rw [← V_main_arg0 m c]
  show V m c main_arg0 (((cfg0.win 0).blk t).view.emb (ix2 k j)) = V m c main_arg0 (ix2 k j)
  refine congrArg _ (funext fun a => Fin.ext ?_)
  obtain ⟨e0, e1, -⟩ := idx_facts t
  match a with
  | ⟨0, _⟩ => show win0_0.index t (0 : Fin 2) * 10000 + 1 * k.val = k.val; omega
  | ⟨1, _⟩ => show win0_0.index t (1 : Fin 2) * 256 + 1 * j.val = j.val; omega

/-- The weight block is the transposed weight matrix. -/
theorem blk1 (c : Dev nD) (t : Fin cfg0.N) (j : Fin 256) (q : Fin 256) :
    iblk m c 1 t (ix2 j q) = m ((c : Thread nD τ).loc main_arg2) (ix2 q j) := by
  have e : iblk m c 1 t (ix2 j q) = V m c main_v0 (ix2 j q) := by
    show V m c main_v0 (((cfg0.win 1).blk t).view.emb (ix2 j q)) = V m c main_v0 (ix2 j q)
    refine congrArg _ (funext fun a => Fin.ext ?_)
    obtain ⟨-, -, e0, e1, -⟩ := idx_facts t
    match a with
    | ⟨0, _⟩ => show win0_1.index t (0 : Fin 2) * 256 + 1 * j.val = j.val; omega
    | ⟨1, _⟩ => show win0_1.index t (1 : Fin 2) * 256 + 1 * q.val = q.val; omega
  rw [e, V_main_v0]
  exact transpose_ix2_apply _ _ j q

theorem blk2 (c : Dev nD) (t : Fin cfg0.N) (q : Fin 256) :
    iblk m c 2 t (ix2 (0 : Fin 1) q) = m ((c : Thread nD τ).loc main_arg3) (ix1 q) := by
  have e : iblk m c 2 t (ix2 (0 : Fin 1) q) = V m c main_v1 (ix2 (0 : Fin 1) q) := by
    show V m c main_v1 (((cfg0.win 2).blk t).view.emb (ix2 (0 : Fin 1) q)) = V m c main_v1 (ix2 (0 : Fin 1) q)
    refine congrArg _ (funext fun a => Fin.ext ?_)
    obtain ⟨-, -, -, -, e0, e1, -⟩ := idx_facts t
    match a with
    | ⟨0, _⟩ => show win0_2.index t (0 : Fin 2) * 1 + 1 * 0 = 0; omega
    | ⟨1, _⟩ => show win0_2.index t (1 : Fin 2) * 256 + 1 * q.val = q.val; omega
  rw [e, V_main_v1]
  exact shapeCast_a_1a_apply _ _ (0 : Fin 1) q

theorem blk3 (c : Dev nD) (t : Fin cfg0.N) (p : Fin 200) (k : Fin 10000) :
    iblk m c 3 t (ix2 p k) = m ((c : Thread nD τ).loc main_arg1) (ix2 (rowLo t p) k) := by
  rw [← V_main_arg1 m c]
  show V m c main_arg1 (((cfg0.win 3).blk t).view.emb (ix2 p k)) = V m c main_arg1 (ix2 (rowLo t p) k)
  refine congrArg _ (funext fun a => Fin.ext ?_)
  obtain ⟨-, -, -, -, -, -, e0, e1, -⟩ := idx_facts t
  match a with
  | ⟨0, _⟩ => show win0_3.index t (0 : Fin 2) * 200 + 1 * p.val = 400 * t.val + p.val; omega
  | ⟨1, _⟩ => show win0_3.index t (1 : Fin 2) * 10000 + 1 * k.val = k.val; omega

theorem blk4 (c : Dev nD) (t : Fin cfg0.N) (p : Fin 200) (k : Fin 10000) :
    iblk m c 4 t (ix2 p k) = m ((c : Thread nD τ).loc main_arg1) (ix2 (rowHi t p) k) := by
  rw [← V_main_arg1 m c]
  show V m c main_arg1 (((cfg0.win 4).blk t).view.emb (ix2 p k)) = V m c main_arg1 (ix2 (rowHi t p) k)
  refine congrArg _ (funext fun a => Fin.ext ?_)
  obtain ⟨-, -, -, -, -, -, -, -, e0, e1, -⟩ := idx_facts t
  match a with
  | ⟨0, _⟩ => show win0_4.index t (0 : Fin 2) * 200 + 1 * p.val = 400 * t.val + 200 + p.val; omega
  | ⟨1, _⟩ => show win0_4.index t (1 : Fin 2) * 10000 + 1 * k.val = k.val; omega

theorem blk5 (c : Dev nD) (t : Fin cfg0.N) (q : Fin 256) :
    iblk m c 5 t (ix2 (0 : Fin 1) q) = m ((c : Thread nD τ).loc main_arg4) (ix1 q) := by
  have e : iblk m c 5 t (ix2 (0 : Fin 1) q) = V m c main_v2 (ix2 (0 : Fin 1) q) := by
    show V m c main_v2 (((cfg0.win 5).blk t).view.emb (ix2 (0 : Fin 1) q)) = V m c main_v2 (ix2 (0 : Fin 1) q)
    refine congrArg _ (funext fun a => Fin.ext ?_)
    obtain ⟨-, -, -, -, -, -, -, -, -, -, e0, e1, -⟩ := idx_facts t
    match a with
    | ⟨0, _⟩ => show win0_5.index t (0 : Fin 2) * 1 + 1 * 0 = 0; omega
    | ⟨1, _⟩ => show win0_5.index t (1 : Fin 2) * 256 + 1 * q.val = q.val; omega
  rw [e, V_main_v2]
  exact shapeCast_a_1a_apply _ _ (0 : Fin 1) q

theorem blk6 (c : Dev nD) (t : Fin cfg0.N) :
    iblk m c 6 t (ix2 (0 : Fin 1) (0 : Fin 1)) = m ((c : Thread nD τ).loc main_arg5) ix0 := by
  have e : iblk m c 6 t (ix2 (0 : Fin 1) (0 : Fin 1)) = V m c main_v3 (ix2 (0 : Fin 1) (0 : Fin 1)) := by
    show V m c main_v3 (((cfg0.win 6).blk t).view.emb (ix2 (0 : Fin 1) (0 : Fin 1))) = V m c main_v3 (ix2 (0 : Fin 1) (0 : Fin 1))
    refine congrArg _ (funext fun a => Fin.ext ?_)
    obtain ⟨-, -, -, -, -, -, -, -, -, -, -, -, e0, e1⟩ := idx_facts t
    match a with
    | ⟨0, _⟩ => show win0_6.index t (0 : Fin 2) * 1 + 1 * 0 = 0; omega
    | ⟨1, _⟩ => show win0_6.index t (1 : Fin 2) * 1 + 1 * 0 = 0; omega
  rw [e, V_main_v3]
  -- both indices sit at row-major position 0
  refine shapeCast_apply _ _ _ _ ?_
  rw [Shape.rowMajor_val_two]
  show (Shape.rowMajorPi _ _).val = 0 * 1 + 0
  rw [Shape.rowMajorPi_zero]

end Cert.KernelIdeal.Hand

end
-- ==== Proof.Spec.lean ====
/-
  The function both programs compute, index by index over the extended reals: one graph-convolution layer,
  out = PReLU(adj · (seq · Wᵀ + b_fc) + bias), the slope one scalar.
  Entry (r, q) of the result depends on row r of the adjacency matrix, on every row of the feature matrix,
  on row q of the weight matrix, and on entry q of each bias vector.
-/
import Idealize.ShloMosaic.PureOps.Ideal
import Idealize.ShloMosaic.Lib.ValueIdx

noncomputable section

open scoped BigOperators

namespace Cert.Spec

open Idealize.ShloMosaic Idealize.ShloMosaic.ValueIdx

/-- PReLU of one extended real with slope `a`: `x` itself where `x ≥ 0`, else `a · x`. -/
def prelu (a x : Ideal .f32) : Ideal .f32 :=
  Scalar.select (FloatOps.cmpf (F := Ideal) .oge x (Ideal.ofBits .f32 0x00000000#32)) x (a * x)

/-- The linear layer at (k, q): row `k` of the features against row `q` of the weights, plus the layer's bias at `q`. -/
def lin (seq : FVec Ideal ⟨2, ![10000, 256]⟩ .f32) (W : FVec Ideal ⟨2, ![256, 256]⟩ .f32) (bfc : FVec Ideal ⟨1, ![256]⟩ .f32)
    (k : Fin 10000) (q : Fin 256) : Ideal .f32 :=
  (∑ j : Fin 256, seq (ix2 k j) * W (ix2 q j)) + bfc (ix1 q)

/-- The aggregation at (r, q): row `r` of the adjacency matrix against column `q` of the linear layer's result, plus the
    outer bias at `q`. -/
def agg (seq : FVec Ideal ⟨2, ![10000, 256]⟩ .f32) (adj : FVec Ideal ⟨2, ![10000, 10000]⟩ .f32) (W : FVec Ideal ⟨2, ![256, 256]⟩ .f32)
    (bfc bias : FVec Ideal ⟨1, ![256]⟩ .f32) (r : Fin 10000) (q : Fin 256) : Ideal .f32 :=
  (∑ k : Fin 10000, adj (ix2 r k) * lin seq W bfc k q) + bias (ix1 q)

/-- The layer's result: PReLU, with the scalar slope, of the aggregation. -/
def G (seq : FVec Ideal ⟨2, ![10000, 256]⟩ .f32) (adj : FVec Ideal ⟨2, ![10000, 10000]⟩ .f32) (W : FVec Ideal ⟨2, ![256, 256]⟩ .f32)
    (bfc bias : FVec Ideal ⟨1, ![256]⟩ .f32) (ap : FVec Ideal ⟨0, ![]⟩ .f32) : FVec Ideal ⟨2, ![10000, 256]⟩ .f32 :=
  fun i => prelu (ap ix0) (agg seq adj W bfc bias (i 0) (i 1))

end Cert.Spec

end
-- ==== Proof.KI.Payload.lean ====
/-
  The kernel body's three stored values read at one entry, over the extended reals: the scratch value is the linear
  layer (a row of the features against a column of the transposed weights, plus the bias row), and each of the two
  output pieces is the PReLU of a row of its adjacency block against a column of the scratch, plus the bias row.
-/
import proofs.«133158_g38517266711067_cont_8to1_b_469_8_alg».proof.Proof.Gen.KernelIdeal.Skeleton
import proofs.«133158_g38517266711067_cont_8to1_b_469_8_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-! ## The 10000×256 by 256×256 product's operand indices, axis by axis -/

/-- The left operand's row is the result's row. -/
theorem lhs_mmLin_0 (i : S10000x256.Idx) (q : dot_S10000x256_S256x256_S10000x256_1_0_0_1_n_n.contr.Idx) :
    (dot_S10000x256_S256x256_S10000x256_1_0_0_1_n_n.lhsIdx i q 0).val = (i 0).val := by
  unfold DotDims.lhsIdx
  rw [dif_neg (show ¬(0 : Fin S10000x256.rank) ∈ dot_S10000x256_S256x256_S10000x256_1_0_0_1_n_n.lhsBatch by decide), dif_pos (show (0 : Fin S10000x256.rank) ∈ dot_S10000x256_S256x256_S10000x256_1_0_0_1_n_n.lhsNonContracting by decide)]
  rfl
/-- The left operand's column is the contraction coordinate. -/
theorem lhs_mmLin_1 (i : S10000x256.Idx) (q : dot_S10000x256_S256x256_S10000x256_1_0_0_1_n_n.contr.Idx) :
    (dot_S10000x256_S256x256_S10000x256_1_0_0_1_n_n.lhsIdx i q 1).val = (q ⟨0, by decide⟩).val :=
  dot_S10000x256_S256x256_S10000x256_1_0_0_1_n_n.lhsIdx_val_of_single rfl i q
/-- The right operand's row is the contraction coordinate. -/
theorem rhs_mmLin_0 (i : S10000x256.Idx) (q : dot_S10000x256_S256x256_S10000x256_1_0_0_1_n_n.contr.Idx) :
    (dot_S10000x256_S256x256_S10000x256_1_0_0_1_n_n.rhsIdx i q 0).val = (q ⟨0, by decide⟩).val :=
  dot_S10000x256_S256x256_S10000x256_1_0_0_1_n_n.rhsIdx_val_of_single rfl i q
/-- The right operand's column is the result's column. -/
theorem rhs_mmLin_1 (i : S10000x256.Idx) (q : dot_S10000x256_S256x256_S10000x256_1_0_0_1_n_n.contr.Idx) :
    (dot_S10000x256_S256x256_S10000x256_1_0_0_1_n_n.rhsIdx i q 1).val = (i 1).val := by
  unfold DotDims.rhsIdx
  rw [dif_neg (show ¬(1 : Fin S256x256.rank) ∈ dot_S10000x256_S256x256_S10000x256_1_0_0_1_n_n.rhsBatch by decide), dif_pos (show (1 : Fin S256x256.rank) ∈ dot_S10000x256_S256x256_S10000x256_1_0_0_1_n_n.rhsNonContracting by decide)]
  rfl

/-- The product into a zero accumulator, read at (r, c): row `r` of the left operand against column `c` of the right. -/
theorem mmLin_apply (a : FVec Ideal S10000x256 .f32) (b : FVec Ideal S256x256 .f32) (r : Fin 10000) (c : Fin 256) :
    matmul dot_S10000x256_S256x256_S10000x256_1_0_0_1_n_n none a b (constant (F := Ideal) S10000x256 .f32 0x00000000#32) (ix2 r c)
      = ∑ k : Fin 256, a (ix2 r k) * b (ix2 k c) := by
  refine (Ideal.matmul_constant_zero_apply dot_S10000x256_S256x256_S10000x256_1_0_0_1_n_n none a b (ix2 r c)).trans ?_
  rw [← Equiv.sum_comp (contrEquiv1 dot_S10000x256_S256x256_S10000x256_1_0_0_1_n_n 256 rfl rfl).symm]
  refine Finset.sum_congr rfl fun k _ => ?_
  have hk := contrEquiv1_symm_val dot_S10000x256_S256x256_S10000x256_1_0_0_1_n_n 256 rfl rfl k
  have el : dot_S10000x256_S256x256_S10000x256_1_0_0_1_n_n.lhsIdx (ix2 r c) ((contrEquiv1 dot_S10000x256_S256x256_S10000x256_1_0_0_1_n_n 256 rfl rfl).symm k) = ix2 r k := funext fun x => Fin.ext (by
    match x with
    | ⟨0, _⟩ => exact lhs_mmLin_0 _ _
    | ⟨1, _⟩ => exact (lhs_mmLin_1 _ _).trans hk)
  have er : dot_S10000x256_S256x256_S10000x256_1_0_0_1_n_n.rhsIdx (ix2 r c) ((contrEquiv1 dot_S10000x256_S256x256_S10000x256_1_0_0_1_n_n 256 rfl rfl).symm k) = ix2 k c := funext fun x => Fin.ext (by
    match x with
    | ⟨0, _⟩ => exact (rhs_mmLin_0 _ _).trans hk
    | ⟨1, _⟩ => exact rhs_mmLin_1 _ _)
  rw [el, er]

/-! ## The 200×10000 by 10000×256 product's operand indices, axis by axis -/

/-- The left operand's row is the result's row. -/
theorem lhs_mmAgg_0 (i : S200x256.Idx) (q : dot_S200x10000_S10000x256_S200x256_1_0_0_1_n_n.contr.Idx) :
    (dot_S200x10000_S10000x256_S200x256_1_0_0_1_n_n.lhsIdx i q 0).val = (i 0).val := by
  unfold DotDims.lhsIdx
  rw [dif_neg (show ¬(0 : Fin S200x10000.rank) ∈ dot_S200x10000_S10000x256_S200x256_1_0_0_1_n_n.lhsBatch by decide), dif_pos (show (0 : Fin S200x10000.rank) ∈ dot_S200x10000_S10000x256_S200x256_1_0_0_1_n_n.lhsNonContracting by decide)]
  rfl
/-- The left operand's column is the contraction coordinate. -/
theorem lhs_mmAgg_1 (i : S200x256.Idx) (q : dot_S200x10000_S10000x256_S200x256_1_0_0_1_n_n.contr.Idx) :
    (dot_S200x10000_S10000x256_S200x256_1_0_0_1_n_n.lhsIdx i q 1).val = (q ⟨0, by decide⟩).val :=
  dot_S200x10000_S10000x256_S200x256_1_0_0_1_n_n.lhsIdx_val_of_single rfl i q
/-- The right operand's row is the contraction coordinate. -/
theorem rhs_mmAgg_0 (i : S200x256.Idx) (q : dot_S200x10000_S10000x256_S200x256_1_0_0_1_n_n.contr.Idx) :
    (dot_S200x10000_S10000x256_S200x256_1_0_0_1_n_n.rhsIdx i q 0).val = (q ⟨0, by decide⟩).val :=
  dot_S200x10000_S10000x256_S200x256_1_0_0_1_n_n.rhsIdx_val_of_single rfl i q
/-- The right operand's column is the result's column. -/
theorem rhs_mmAgg_1 (i : S200x256.Idx) (q : dot_S200x10000_S10000x256_S200x256_1_0_0_1_n_n.contr.Idx) :
    (dot_S200x10000_S10000x256_S200x256_1_0_0_1_n_n.rhsIdx i q 1).val = (i 1).val := by
  unfold DotDims.rhsIdx
  rw [dif_neg (show ¬(1 : Fin S10000x256.rank) ∈ dot_S200x10000_S10000x256_S200x256_1_0_0_1_n_n.rhsBatch by decide), dif_pos (show (1 : Fin S10000x256.rank) ∈ dot_S200x10000_S10000x256_S200x256_1_0_0_1_n_n.rhsNonContracting by decide)]
  rfl

/-- The product into a zero accumulator, read at (r, c): row `r` of the left operand against column `c` of the right. -/
theorem mmAgg_apply (a : FVec Ideal S200x10000 .f32) (b : FVec Ideal S10000x256 .f32) (r : Fin 200) (c : Fin 256) :
    matmul dot_S200x10000_S10000x256_S200x256_1_0_0_1_n_n none a b (constant (F := Ideal) S200x256 .f32 0x00000000#32) (ix2 r c)
      = ∑ k : Fin 10000, a (ix2 r k) * b (ix2 k c) := by
  refine (Ideal.matmul_constant_zero_apply dot_S200x10000_S10000x256_S200x256_1_0_0_1_n_n none a b (ix2 r c)).trans ?_
  rw [← Equiv.sum_comp (contrEquiv1 dot_S200x10000_S10000x256_S200x256_1_0_0_1_n_n 10000 rfl rfl).symm]
  refine Finset.sum_congr rfl fun k _ => ?_
  have hk := contrEquiv1_symm_val dot_S200x10000_S10000x256_S200x256_1_0_0_1_n_n 10000 rfl rfl k
  have el : dot_S200x10000_S10000x256_S200x256_1_0_0_1_n_n.lhsIdx (ix2 r c) ((contrEquiv1 dot_S200x10000_S10000x256_S200x256_1_0_0_1_n_n 10000 rfl rfl).symm k) = ix2 r k := funext fun x => Fin.ext (by
    match x with
    | ⟨0, _⟩ => exact lhs_mmAgg_0 _ _
    | ⟨1, _⟩ => exact (lhs_mmAgg_1 _ _).trans hk)
  have er : dot_S200x10000_S10000x256_S200x256_1_0_0_1_n_n.rhsIdx (ix2 r c) ((contrEquiv1 dot_S200x10000_S10000x256_S200x256_1_0_0_1_n_n 10000 rfl rfl).symm k) = ix2 k c := funext fun x => Fin.ext (by
    match x with
    | ⟨0, _⟩ => exact (rhs_mmAgg_0 _ _).trans hk
    | ⟨1, _⟩ => exact rhs_mmAgg_1 _ _)
  rw [el, er]

/-- The value stored into the scratch, at (k, q): row `k` of the feature block against column `q` of the
    transposed-weights block, plus the bias row at `q`. -/
theorem pay1_apply (x0 : Vec Ideal S10000x256 .f32) (x1 : Vec Ideal S256x256 .f32) (x2 : Vec Ideal S1x256 .f32)
    (k : Fin 10000) (q : Fin 256) :
    k0_pay1 (F := Ideal) x0 x1 x2 (ix2 k q) = (∑ j : Fin 256, x0 (ix2 k j) * x1 (ix2 j q)) + x2 (ix2 0 q) := by
  unfold k0_pay1
  -- the three shape casts are between equal shapes
  rw [shapeCast_self, shapeCast_self, shapeCast_self]
  refine (addf_apply _ _ (ix2 k q)).trans ?_
  rw [mmLin_apply, broadcastTo_1b_ab_apply]

/-! ## The two output pieces -/

/-- The slope: the one entry of the 1×1 block. -/
theorem slope_eq (x6 : FVec Ideal S1x1 .f32) : extractAt ![0, 0] x6 inpos_S1x1_p0_0 = x6 (ix2 0 0) :=
  congrArg x6 (funext fun a => match a with
    | ⟨0, _⟩ => rfl
    | ⟨1, _⟩ => rfl)

/-- A piece before its activation, at (p, q): row `p` of the adjacency block against column `q` of the scratch
    contents, plus the bias row at `q`. -/
theorem agg_apply (xs : FVec Ideal S10000x256 .f32) (x5 : FVec Ideal S1x256 .f32) (xa : FVec Ideal S200x10000 .f32)
    (p : Fin 200) (q : Fin 256) :
    addf (matmul dot_S200x10000_S10000x256_S200x256_1_0_0_1_n_n none xa xs (constant (F := Ideal) S200x256 .f32 0x00000000#32))
        (broadcastTo S200x256 (shapeCast S1x256 x5 shapeCasts_S1x256_S1x256) broadcasts_S1x256_S200x256) (ix2 p q)
      = (∑ k : Fin 10000, xa (ix2 p k) * xs (ix2 k q)) + x5 (ix2 0 q) := by
  rw [shapeCast_self]
  refine (addf_apply _ _ (ix2 p q)).trans ?_
  rw [mmAgg_apply, broadcastTo_1b_ab_apply]

/-- The activation written with a comparison against the zero splat, a product by the slope splat and a select is,
    entry by entry, PReLU with that slope. -/
theorem prelu_of_eq (z : FVec Ideal S200x256 .f32) (a : Ideal .f32) (i : S200x256.Idx) (v : Ideal .f32) (hz : z i = v) :
    select (cmpf .oge z (broadcast S200x256 (Scalar.ofBits (F := Ideal) .f32 0x00000000#32))) z (mulf (broadcast S200x256 a) z) i
      = Cert.Spec.prelu a v := by
  subst hz
  rfl

/-- A whole piece at (p, q), for either adjacency block. -/
theorem piece_apply (xs : FVec Ideal S10000x256 .f32) (x5 : FVec Ideal S1x256 .f32) (x6 : FVec Ideal S1x1 .f32) (xa : FVec Ideal S200x10000 .f32)
    (p : Fin 200) (q : Fin 256) :
    select
        (cmpf .oge
          (addf (matmul dot_S200x10000_S10000x256_S200x256_1_0_0_1_n_n none xa xs (constant (F := Ideal) S200x256 .f32 0x00000000#32))
            (broadcastTo S200x256 (shapeCast S1x256 x5 shapeCasts_S1x256_S1x256) broadcasts_S1x256_S200x256))
          (broadcast S200x256 (Scalar.ofBits (F := Ideal) .f32 0x00000000#32)))
        (addf (matmul dot_S200x10000_S10000x256_S200x256_1_0_0_1_n_n none xa xs (constant (F := Ideal) S200x256 .f32 0x00000000#32))
          (broadcastTo S200x256 (shapeCast S1x256 x5 shapeCasts_S1x256_S1x256) broadcasts_S1x256_S200x256))
        (mulf (broadcast S200x256 (extractAt ![0, 0] x6 inpos_S1x1_p0_0))
          (addf (matmul dot_S200x10000_S10000x256_S200x256_1_0_0_1_n_n none xa xs (constant (F := Ideal) S200x256 .f32 0x00000000#32))
            (broadcastTo S200x256 (shapeCast S1x256 x5 shapeCasts_S1x256_S1x256) broadcasts_S1x256_S200x256)))
        (ix2 p q)
      = Cert.Spec.prelu (x6 (ix2 0 0)) ((∑ k : Fin 10000, xa (ix2 p k) * xs (ix2 k q)) + x5 (ix2 0 q)) := by
  rw [slope_eq]
  exact prelu_of_eq _ _ _ _ (agg_apply xs x5 xa p q)

/-- The first output piece at (p, q): PReLU, with the slope `x6 (0, 0)`, of row `p` of the adjacency block against
    column `q` of the scratch contents, plus the bias row at `q`. -/
theorem pay4_apply (xs : Vec Ideal S10000x256 .f32) (x5 : Vec Ideal S1x256 .f32) (x6 : Vec Ideal S1x1 .f32) (x3 : Vec Ideal S200x10000 .f32)
    (p : Fin 200) (q : Fin 256) :
    k0_pay4 (F := Ideal) xs x5 x6 x3 (ix2 p q)
      = Cert.Spec.prelu (x6 (ix2 0 0)) ((∑ k : Fin 10000, x3 (ix2 p k) * xs (ix2 k q)) + x5 (ix2 0 q)) := by
  unfold k0_pay4 k0_pay2 k0_pay3
  exact piece_apply xs x5 x6 x3 p q

/-- The second output piece at (p, q): the same of the second adjacency block. -/
theorem pay5_apply (xs : Vec Ideal S10000x256 .f32) (x5 : Vec Ideal S1x256 .f32) (x6 : Vec Ideal S1x1 .f32) (x4 : Vec Ideal S200x10000 .f32)
    (p : Fin 200) (q : Fin 256) :
    k0_pay5 (F := Ideal) xs x5 x6 x4 (ix2 p q)
      = Cert.Spec.prelu (x6 (ix2 0 0)) ((∑ k : Fin 10000, x4 (ix2 p k) * xs (ix2 k q)) + x5 (ix2 0 q)) := by
  unfold k0_pay5 k0_pay2 k0_pay3
  exact piece_apply xs x5 x6 x4 p q

end Cert.KernelIdeal.Hand

end
-- ==== Proof.KI.Value.lean ====
/-
  The kernel's result array after the run is the specification of the six argument arrays: at every grid point the
  block the pipeline writes back is the specification restricted to that block (rows 400·t … 400·t + 399), the 25
  blocks tile the array, so the array after the last write-back is the specification everywhere.
-/
import proofs.«133158_g38517266711067_cont_8to1_b_469_8_alg».proof.Proof.KI.Data
import proofs.«133158_g38517266711067_cont_8to1_b_469_8_alg».proof.Proof.KI.Blocks
import proofs.«133158_g38517266711067_cont_8to1_b_469_8_alg».proof.Proof.KI.Payload
import proofs.«133158_g38517266711067_cont_8to1_b_469_8_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The specification at the six argument arrays as launched on core `c`. -/
abbrev Gm (c : Dev nD) : FVec Ideal ⟨2, ![10000, 256]⟩ .f32 :=
  Cert.Spec.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! ## The scratch holds the linear layer -/

/-- Entry (k, q) of the scratch, once stored, is the linear layer there: row `k` of the features against row `q` of
    the weights (the weight block is the transposed matrix), plus the layer's bias at `q`. -/
theorem SF0_apply (c : Dev nD) (k : Fin 10000) (q : Fin 256) :
    SF0 (F := Ideal) m c (ix2 k q)
      = Cert.Spec.lin (m ((c : Thread nD τ).loc main_arg0)) (m ((c : Thread nD τ).loc main_arg2)) (m ((c : Thread nD τ).loc main_arg3)) k q := by
  unfold SF0
  refine (pay1_apply (iblk m c 0 t₀) (iblk m c 1 t₀) (iblk m c 2 t₀) k q).trans ?_
  unfold Cert.Spec.lin
  rw [blk2]
  refine congrArg (· + _) ?_
  exact Finset.sum_congr rfl fun j _ => by rw [blk0, blk1]

/-! ## The staging buffer at an entry -/

/-- Row `p` of the first piece is row `p` of the 400-row block; -/
def inLo (p : Fin 200) : Fin 400 := ⟨p.val, by omega⟩
/-- of the second piece, row `200 + p`. -/
def inHi (p : Fin 200) : Fin 400 := ⟨200 + p.val, by omega⟩

/-- Local entry (p, q) of the first rectangle is entry (p, q) of the block; -/
theorem rLo_emb (p : Fin 200) (q : Fin 256) :
    rLo.emb (ix2 p q) = ix2 (inLo p) q := by
  funext a; apply Fin.ext
  match a with
  | ⟨0, _⟩ => show 0 + 1 * p.val = p.val; omega
  | ⟨1, _⟩ => show 0 + 1 * q.val = q.val; omega

/-- of the second rectangle, entry (200 + p, q). -/
theorem rHi_emb (p : Fin 200) (q : Fin 256) :
    rHi.emb (ix2 p q) = ix2 (inHi p) q := by
  funext a; apply Fin.ext
  match a with
  | ⟨0, _⟩ => show 200 + 1 * p.val = 200 + p.val; omega
  | ⟨1, _⟩ => show 0 + 1 * q.val = q.val; omega

/-- A row below 200 is not in the second rectangle. -/
theorem not_mem_rHi (p : Fin 200) (q : Fin 256) :
    (ix2 (inLo p) q : S400x256.Idx) ∉ rHi.set := by
  rw [Rect.mem_set_unit]
  intro h
  have h0 : 200 ≤ p.val := (h 0).1
  omega

/-- Rows 0–199 of the staging buffer hold the first store's payload; -/
theorem OUT_lo (xs : Vec Ideal S10000x256 .f32) (x5 : Vec Ideal S1x256 .f32) (x6 : Vec Ideal S1x1 .f32)
    (x3 x4 : Vec Ideal S200x10000 .f32) (p : Fin 200) (q : Fin 256) :
    OUT (F := Ideal) xs x5 x6 x3 x4 (ix2 (inLo p) q) = k0_pay4 (F := Ideal) xs x5 x6 x3 (ix2 p q) := by
  unfold OUT
  rw [View.canon_cons_of_not_mem (Val := Elt Ideal)
      (⟨rHi, k0_pay5 (F := Ideal) xs x5 x6 x4⟩ : View.Piece (Elt Ideal) S400x256 .f32)
      [⟨rLo, k0_pay4 (F := Ideal) xs x5 x6 x3⟩] (not_mem_rHi p q), ← rLo_emb p q]
  exact View.canon_cons_emb (Val := Elt Ideal) (e := .f32) rLo (k0_pay4 (F := Ideal) xs x5 x6 x3) [] (ix2 p q)

/-- rows 200–399 the second's. -/
theorem OUT_hi (xs : Vec Ideal S10000x256 .f32) (x5 : Vec Ideal S1x256 .f32) (x6 : Vec Ideal S1x1 .f32)
    (x3 x4 : Vec Ideal S200x10000 .f32) (p : Fin 200) (q : Fin 256) :
    OUT (F := Ideal) xs x5 x6 x3 x4 (ix2 (inHi p) q) = k0_pay5 (F := Ideal) xs x5 x6 x4 (ix2 p q) := by
  unfold OUT
  rw [← rHi_emb p q]
  exact View.canon_cons_emb (Val := Elt Ideal) (e := .f32) rHi (k0_pay5 (F := Ideal) xs x5 x6 x4)
    ([⟨rLo, k0_pay4 (F := Ideal) xs x5 x6 x3⟩] : List (View.Piece (Elt Ideal) S400x256 .f32)) (ix2 p q)

/-! ## The written-back block -/

/-- The output window's index map, decided over the grid: at point `t` it is block `t` of the rows, block 0 of the
    columns. -/
theorem out_index : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

/-- Row `r` of the block written back at point `t` is row `400·t + r` of the result array. -/
def rowOf (t : Fin cfg0.N) (r : Fin 400) : Fin 10000 := ⟨400 * t.val + r.val, by have := tlt t; omega⟩

/-- The rows of the two pieces at point `t` are the rows the two adjacency blocks hold there. -/
theorem rowOf_inLo (t : Fin cfg0.N) (p : Fin 200) : rowOf t (inLo p) = rowLo t p := rfl
theorem rowOf_inHi (t : Fin cfg0.N) (p : Fin 200) : rowOf t (inHi p) = rowHi t p :=
  Fin.ext (by show 400 * t.val + (200 + p.val) = 400 * t.val + 200 + p.val; omega)

/-- The specification read through point `t`'s block, at entry (r, q): the specification at (400·t + r, q). -/
theorem read_block (G : FVec Ideal ⟨2, ![10000, 256]⟩ .f32) (t : Fin cfg0.N) (r : Fin 400) (q : Fin 256) :
    ((cfg0.win 7).blk t).view.read (Elt Ideal) G (ix2 r q) = G (ix2 (rowOf t r) q) := by
  obtain ⟨e0, e1⟩ := out_index t
  show G (((cfg0.win 7).blk t).view.emb (ix2 r q)) = G (ix2 (rowOf t r) q)
  refine congrArg G ?_
  funext a; apply Fin.ext
  match a with
  | ⟨0, _⟩ => show win0_7.index t (0 : Fin 2) * 400 + 1 * r.val = 400 * t.val + r.val; rw [e0]; omega
  | ⟨1, _⟩ => show win0_7.index t (1 : Fin 2) * 256 + 1 * q.val = q.val; rw [e1]; omega

/-- A row of the staging buffer from its inputs: PReLU, with the slope, of the adjacency row against the scratch's
    column plus the outer bias. Rows 0–199 read the first adjacency block; -/
theorem OUT_lo_apply (xs : Vec Ideal S10000x256 .f32) (x5 : Vec Ideal S1x256 .f32) (x6 : Vec Ideal S1x1 .f32)
    (x3 x4 : Vec Ideal S200x10000 .f32) (p : Fin 200) (q : Fin 256) :
    OUT (F := Ideal) xs x5 x6 x3 x4 (ix2 (inLo p) q)
      = Cert.Spec.prelu (x6 (ix2 0 0)) ((∑ k : Fin 10000, x3 (ix2 p k) * xs (ix2 k q)) + x5 (ix2 0 q)) :=
  (OUT_lo xs x5 x6 x3 x4 p q).trans (pay4_apply xs x5 x6 x3 p q)

/-- rows 200–399 the second. -/
theorem OUT_hi_apply (xs : Vec Ideal S10000x256 .f32) (x5 : Vec Ideal S1x256 .f32) (x6 : Vec Ideal S1x1 .f32)
    (x3 x4 : Vec Ideal S200x10000 .f32) (p : Fin 200) (q : Fin 256) :
    OUT (F := Ideal) xs x5 x6 x3 x4 (ix2 (inHi p) q)
      = Cert.Spec.prelu (x6 (ix2 0 0)) ((∑ k : Fin 10000, x4 (ix2 p k) * xs (ix2 k q)) + x5 (ix2 0 q)) :=
  (OUT_hi xs x5 x6 x3 x4 p q).trans (pay5_apply xs x5 x6 x4 p q)

/-- What the staging buffer holds after point `t`, at a row below 200: the specification at row `400·t + p`. -/
theorem after_lo (c : Dev nD) (t : Fin cfg0.N) (p : Fin 200) (q : Fin 256) :
    OUT (F := Ideal) (SF0 m c) (iblk m c 5 t) (iblk m c 6 t) (iblk m c 3 t) (iblk m c 4 t) (ix2 (inLo p) q)
      = Gm m c (ix2 (rowLo t p) q) := by
  rw [OUT_lo_apply, blk6, blk5]
  show _ = Cert.Spec.prelu _ (Cert.Spec.agg _ _ _ _ _ (rowLo t p) q)
  unfold Cert.Spec.agg
  refine congrArg (fun z => Cert.Spec.prelu _ (z + _)) ?_
  exact Finset.sum_congr rfl fun k _ => by rw [blk3, SF0_apply]

/-- At a row from 200 on: the specification at row `400·t + 200 + p`. -/
theorem after_hi (c : Dev nD) (t : Fin cfg0.N) (p : Fin 200) (q : Fin 256) :
    OUT (F := Ideal) (SF0 m c) (iblk m c 5 t) (iblk m c 6 t) (iblk m c 3 t) (iblk m c 4 t) (ix2 (inHi p) q)
      = Gm m c (ix2 (rowHi t p) q) := by
  rw [OUT_hi_apply, blk6, blk5]
  show _ = Cert.Spec.prelu _ (Cert.Spec.agg _ _ _ _ _ (rowHi t p) q)
  unfold Cert.Spec.agg
  refine congrArg (fun z => Cert.Spec.prelu _ (z + _)) ?_
  exact Finset.sum_congr rfl fun k _ => by rw [blk4, SF0_apply]

/-- What point `t` writes back is block `t` of the specification. -/
theorem flushed_eq (c : Dev nD) (t : Fin cfg0.N) :
    (dats (F := Ideal) m 0 c).flushed 7 t = ((cfg0.win 7).blk t).view.read (Elt Ideal) (Gm m c) := by
  show (cfg0.win 7).cut (grid0.coords t) ((dats (F := Ideal) m 0 c).after 7 t) = _
  rw [after0_7]
  funext y
  obtain ⟨r, q, rfl⟩ : ∃ (r : Fin 400) (q : Fin 256), y = ix2 r q := ⟨y 0, y 1, eq_ix2 y⟩
  rw [read_block]
  show OUT (F := Ideal) (SF0 m c) (iblk m c 5 t) (iblk m c 6 t) (iblk m c 3 t) (iblk m c 4 t) (ix2 r q) = _
  by_cases h : r.val < 200
  · obtain ⟨p, rfl⟩ : ∃ p : Fin 200, r = inLo p := ⟨⟨r.val, h⟩, rfl⟩
    rw [rowOf_inLo]
    exact after_lo m c t p q
  · obtain ⟨p, rfl⟩ : ∃ p : Fin 200, r = inHi p :=
      ⟨⟨r.val - 200, by have := r.isLt; omega⟩, Fin.ext (by show r.val = 200 + (r.val - 200); omega)⟩
    rw [rowOf_inHi]
    exact after_hi m c t p q

/-! ## The blocks tile the array -/

/-- An index of the array is in point `t`'s block iff each coordinate is in the block's range on its axis. -/
theorem mem_block (t : Fin cfg0.N) (i : S10000x256.Idx) :
    i ∈ ((cfg0.win 7).blk t).view.set ↔ ∀ a : Fin 2, win0_7.index t a * S400x256.size a ≤ (i a).val
      ∧ (i a).val < win0_7.index t a * S400x256.size a + S400x256.size a := by
  show i ∈ ((View.whole main_v4).slice (win0_7.rect t)).set ↔ _
  rw [View.set_slice_whole, Rect.mem_set_unit]
  exact Iff.rfl

/-- Row `r` of the array is in the block of point `r / 400`, and every point writes its block back. -/
theorem cover (i : S10000x256.Idx) :
    ∃ t : Fin cfg0.N, (cfg0.win 7).flush t = true ∧ i ∈ ((cfg0.win 7).blk t).view.set := by
  have h0 : (i 0).val < 10000 := idx2_lt0 i
  have h1 : (i 1).val < 256 := idx2_lt1 i
  have hN : cfg0.N = 25 := N_0
  refine ⟨⟨(i 0).val / 400, by rw [hN]; omega⟩, flush0_7 _, ?_⟩
  rw [mem_block]
  obtain ⟨e0, e1⟩ := out_index ⟨(i 0).val / 400, by rw [hN]; omega⟩
  intro a
  match a with
  | ⟨0, _⟩ =>
    show win0_7.index ⟨(i 0).val / 400, _⟩ (0 : Fin 2) * 400 ≤ (i 0).val
      ∧ (i 0).val < win0_7.index ⟨(i 0).val / 400, _⟩ (0 : Fin 2) * 400 + 400
    rw [e0]; show (i 0).val / 400 * 400 ≤ (i 0).val ∧ (i 0).val < (i 0).val / 400 * 400 + 400; omega
  | ⟨1, _⟩ =>
    show win0_7.index ⟨(i 0).val / 400, _⟩ (1 : Fin 2) * 256 ≤ (i 1).val
      ∧ (i 1).val < win0_7.index ⟨(i 0).val / 400, _⟩ (1 : Fin 2) * 256 + 256
    rw [e1]; omega

/-- After the last write-back the result array is the specification. -/
theorem final7 (c : Dev nD) : (dats (F := Ideal) m 0 c).arrAt 7 cfg0.N = Gm m c :=
  (dats (F := Ideal) m 0 c).arrAt_eq_of_cover 7 (Gm m c) (fun t _ => flushed_eq m c t) cover

end Cert.KernelIdeal.Hand

end
-- ==== Proof.KI.ValueRun.lean ====
/-
  The idealized kernel's run with its result named: every weakly fair execution terminates with the result array at the
  specification of the argument arrays as launched, and the argument arrays unchanged.
-/
import proofs.«133158_g38517266711067_cont_8to1_b_469_8_alg».proof.Proof.KI.Frame
import proofs.«133158_g38517266711067_cont_8to1_b_469_8_alg».proof.Proof.KI.Value

noncomputable section

namespace Cert.KernelIdeal.Hand

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg)

theorem run_value : θ_run defs (onTc (τ := τ) (main (F := Ideal))) ⟨m, fun _ => 0, ρ⟩ (fun r => ∀ c : Dev nD,
      r.2.mem ((c.tc : Thread nD τ).loc main_v4) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 7).trans (final7 m c),
     ((h c).1 0).trans (((dats m 0 c).arrAt_in 0 rfl _).trans ((A_eq m c 0).trans (V_main_arg0 m c))),
     ((h c).1 3).trans (((dats m 0 c).arrAt_in 3 rfl _).trans ((A_eq m c 3).trans (V_main_arg1 m c))),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c)⟩)
    (run_main (F := Ideal) m ρ)

end Cert.KernelIdeal.Hand

end
-- ==== Proof.RefIsG.lean ====
/-
  The reference's result, index by index over the extended reals, is the specification: its two matrix products are
  the sums over the contracted axis, its broadcasts read one entry, its select is the PReLU's case split.
-/
import proofs.«133158_g38517266711067_cont_8to1_b_469_8_alg».proof.Proof.Gen.ReferenceIdeal.Read
import proofs.«133158_g38517266711067_cont_8to1_b_469_8_alg».proof.Proof.Spec
import Idealize.ShloMosaic.Lib.ValueIdx
import Idealize.ShloMosaic.PureOps.Ideal.Laws

noncomputable section

open scoped BigOperators

namespace Cert.RefValue

open Idealize.ShloMosaic Idealize.ShloMosaic.ValueIdx Cert.ReferenceIdeal

/-! ## Where each stage reads its operands, in coordinates -/

/-- The first product reads the features at (k, j): row k, contracted position j. -/
theorem feat_idx (k : Fin 10000) (q j : Fin 256) : Read.lidx_main_v1 (ix2 k q) j = ix2 k j :=
  funext fun a => Fin.ext (by match a with | ⟨0, _⟩ => rfl | ⟨1, _⟩ => rfl)

/-- The first product reads the transposed weights at (j, q), which is the weight matrix at (q, j). -/
theorem weight_idx (k : Fin 10000) (q j : Fin 256) : Read.idx_main_v0 (Read.ridx_main_v1 (ix2 k q) j) = ix2 q j :=
  funext fun a => Fin.ext (by match a with | ⟨0, _⟩ => rfl | ⟨1, _⟩ => rfl)

/-- The layer's bias vector, broadcast to the result's shape, is read at the column q. -/
theorem bfc_idx (k : Fin 10000) (q : Fin 256) : Read.idx_main_v2 (Read.idx_main_v3 (ix2 k q)) = ix1 q :=
  funext fun a => Fin.ext (by match a with | ⟨0, _⟩ => rfl)

/-- The outer bias, broadcast the same way, is read at the column q. -/
theorem bias_idx (r : Fin 10000) (q : Fin 256) : Read.idx_main_v6 (Read.idx_main_v7 (ix2 r q)) = ix1 q :=
  funext fun a => Fin.ext (by match a with | ⟨0, _⟩ => rfl)

/-- The second product reads the adjacency matrix at (r, k). -/
theorem adj_idx (r : Fin 10000) (q : Fin 256) (k : Fin 10000) : Read.lidx_main_v5 (ix2 r q) k = ix2 r k :=
  funext fun a => Fin.ext (by match a with | ⟨0, _⟩ => rfl | ⟨1, _⟩ => rfl)

/-- The second product reads the linear layer's result at (k, q). -/
theorem lin_idx (r : Fin 10000) (q : Fin 256) (k : Fin 10000) : Read.ridx_main_v5 (ix2 r q) k = ix2 k q :=
  funext fun a => Fin.ext (by match a with | ⟨0, _⟩ => rfl | ⟨1, _⟩ => rfl)

/-! ## The stages at an index -/

/-- The linear layer's stage at (k, q) is the specification's linear layer: the sum over the contracted axis of
    features times weights, plus the layer's bias at q. -/
theorem lin_at (x0 : (⟨S10000x256, .f32⟩ : BufTy).Contents (Elt Ideal)) (x2 : (⟨S256x256, .f32⟩ : BufTy).Contents (Elt Ideal))
    (x3 : (⟨S256, .f32⟩ : BufTy).Contents (Elt Ideal)) (k : Fin 10000) (q : Fin 256) :
    Read.val_main_v4 (F := Ideal) x0 x2 x3 (ix2 k q) = Cert.Spec.lin x0 x2 x3 k q := by
  rw [Read.val_main_v4_apply, Read.val_main_v1_apply, Read.val_main_v3_apply, Read.val_main_v2_apply, bfc_idx]
  unfold Cert.Spec.lin
  rw [Ideal.addf_def]
  congr 1
  refine Finset.sum_congr rfl fun j _ => ?_
  rw [Read.val_main_v0_apply, feat_idx, weight_idx]

/-- The aggregation's stage at (r, q) is the specification's aggregation: the sum over the contracted axis of
    adjacency times the linear layer, plus the outer bias at q. -/
theorem agg_at (x0 : (⟨S10000x256, .f32⟩ : BufTy).Contents (Elt Ideal)) (x1 : (⟨S10000x10000, .f32⟩ : BufTy).Contents (Elt Ideal))
    (x2 : (⟨S256x256, .f32⟩ : BufTy).Contents (Elt Ideal)) (x3 x4 : (⟨S256, .f32⟩ : BufTy).Contents (Elt Ideal))
    (r : Fin 10000) (q : Fin 256) :
    Read.val_main_v8 (F := Ideal) x0 x1 x2 x3 x4 (ix2 r q) = Cert.Spec.agg x0 x1 x2 x3 x4 r q := by
  rw [Read.val_main_v8_apply, Read.val_main_v5_apply, Read.val_main_v7_apply, Read.val_main_v6_apply, bias_idx]
  unfold Cert.Spec.agg
  rw [Ideal.addf_def]
  congr 1
  refine Finset.sum_congr rfl fun k _ => ?_
  rw [adj_idx, lin_idx, lin_at]

/-- The reference's result term (the last stage of its run) is the specification of its six arguments. -/
theorem ref_is_G (x0 : (⟨S10000x256, .f32⟩ : BufTy).Contents (Elt Ideal)) (x1 : (⟨S10000x10000, .f32⟩ : BufTy).Contents (Elt Ideal))
    (x2 : (⟨S256x256, .f32⟩ : BufTy).Contents (Elt Ideal)) (x3 x4 : (⟨S256, .f32⟩ : BufTy).Contents (Elt Ideal))
    (x5 : (⟨S_, .f32⟩ : BufTy).Contents (Elt Ideal)) :
    Cert.ReferenceIdeal.Read.val_main_v13 (F := Ideal) x0 x1 x2 x3 x4 x5 = Cert.Spec.G x0 x1 x2 x3 x4 x5 := by
  funext i
  obtain ⟨r, q, rfl⟩ : ∃ (r : Fin 10000) (q : Fin 256), i = ix2 r q := ⟨i 0, i 1, eq_ix2 i⟩
  rw [Read.val_main_v13_apply, Read.val_main_v10_apply, Read.val_main_v12_apply, Read.val_main_v9_apply,
    Read.val_main_cst_apply, Read.val_main_v11_apply, agg_at, Ideal.mulf_def, Ideal.ofBits_def]
  rfl

end Cert.RefValue

end
-- ==== Proof.lean ====
/-
  One graph-convolution layer, out = PReLU(adj · (seq · Wᵀ + b_fc) + bias), as a fused kernel against the plain
  array program. The kernel runs on a grid of 25 points; at the first it computes the linear layer seq · Wᵀ + b_fc into a
  scratch buffer that every later point only reads, and at each point it multiplies two 200-row blocks of the adjacency
  matrix (one array, read through two windows) against the scratch, adds the bias row and applies the PReLU. Over the
  extended reals both programs are the same function of their arguments with the same grouping of the sums, so no
  law beyond reading each operation at an entry is needed, and the precondition (finite inputs) is never opened.
  * The three frames: the kernel's by its body's two cases (first point, later points) under an invariant that
    carries the scratch, the adjacency matrix's share dealt by halves to its two windows; the reference's by its run.
  * The idealization rewrote nothing, so it is the program's own text read over the extended reals.
  * The value: block t of the kernel's result is the specification on rows 400·t … 400·t + 399, the blocks tile the
    array; the reference's last stage is the specification entry by entry.
-/
import proofs.«133158_g38517266711067_cont_8to1_b_469_8_alg».proof.Defs
import proofs.«133158_g38517266711067_cont_8to1_b_469_8_alg».proof.Proof.Gen.Kernel
import proofs.«133158_g38517266711067_cont_8to1_b_469_8_alg».proof.Proof.Gen.KernelIdeal
import proofs.«133158_g38517266711067_cont_8to1_b_469_8_alg».proof.Proof.Gen.ReferenceIdeal
import proofs.«133158_g38517266711067_cont_8to1_b_469_8_alg».proof.Proof.Gen.Pre_finite_inputs
import proofs.«133158_g38517266711067_cont_8to1_b_469_8_alg».proof.Proof.Gen.ReferenceIdeal.Run
import proofs.«133158_g38517266711067_cont_8to1_b_469_8_alg».proof.Proof.Gen.ReferenceIdeal.Read
import proofs.«133158_g38517266711067_cont_8to1_b_469_8_alg».proof.Proof.K.Frame
import proofs.«133158_g38517266711067_cont_8to1_b_469_8_alg».proof.Proof.KI.Frame
import proofs.«133158_g38517266711067_cont_8to1_b_469_8_alg».proof.Proof.KI.ValueRun
import proofs.«133158_g38517266711067_cont_8to1_b_469_8_alg».proof.Proof.RefIsG
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- Both programs end at the specification of the arguments, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.Gm m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v13_eq _ _ _ _ _ _).trans (Cert.RefValue.ref_is_G _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
